-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S1x128 : Shape := ⟨2, ![1, 128]⟩

abbrev nBuf : Space → Nat
  | .hbm => 49
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v26) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call3_cst : Ref sig .tc := ⟨.hbm, 59, rfl⟩
abbrev main_call3_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The dense tail of the graph convolution, written once on a single row.

  After the neighbourhood aggregation both programs hold the same node-by-feature array `A` (100000 × 128). What
  follows is row-wise: node `r`'s output depends on row `r` of `A` only,
      out[r, ·] = relu (relu (A[r, ·] · Wc + bc) · W1 + b1) · W2 + b2,
  with each product a sum over the 128 input features, `relu x = max x 0`, all on the extended reals.  The kernel
  computes it on blocks of 4000 rows, the reference on the whole array; both are this one function of a row.
-/
import Idealize.ShloMosaic.PureOps.Ideal
import Idealize.ShloMosaic.Lib.ValueIdx

noncomputable section

open scoped BigOperators

namespace Cert.GraphMlp

open Idealize.ShloMosaic Idealize.ShloMosaic.ValueIdx

/-- A 128 × 128 weight matrix and a length-128 bias, as the programs hold them. -/
abbrev Mat : Type := (⟨2, ![128, 128]⟩ : Shape).Idx → EReal
abbrev Bias : Type := (⟨1, ![128]⟩ : Shape).Idx → EReal

/-- One affine layer on one row: column `q` of `a · W + b`. -/
def denseRow (a : Fin 128 → EReal) (W : Mat) (b : Bias) (q : Fin 128) : EReal :=
  (∑ k : Fin 128, a k * W (ix2 k q)) + b (ix1 q)

/-- The rectifier on one row. -/
def reluRow (a : Fin 128 → EReal) (q : Fin 128) : EReal := max (a q) 0

/-- The three layers on one row. -/
def mlpRow (a : Fin 128 → EReal) (Wc : Mat) (bc : Bias) (W1 : Mat) (b1 : Bias) (W2 : Mat) (b2 : Bias) : Fin 128 → EReal :=
  denseRow (reluRow (denseRow (reluRow (denseRow a Wc bc)) W1 b1)) W2 b2

/-- Row `p` of an array with 128 columns. -/
abbrev rowOf {n : Nat} (A : (⟨2, ![n, 128]⟩ : Shape).Idx → EReal) (p : Fin n) : Fin 128 → EReal := fun k => A (ix2 p k)

/-- The three layers applied to every row of an array of 4000 rows (one block of the kernel's grid). -/
def mlpBlock (X : (⟨2, ![4000, 128]⟩ : Shape).Idx → EReal) (Wc : Mat) (bc : Bias) (W1 : Mat) (b1 : Bias) (W2 : Mat) (b2 : Bias) :
    (⟨2, ![4000, 128]⟩ : Shape).Idx → EReal :=
  fun i => mlpRow (rowOf X (i 0)) Wc bc W1 b1 W2 b2 (i 1)

/-- The three layers applied to every row of the whole node array. -/
def mlpAll (A : (⟨2, ![100000, 128]⟩ : Shape).Idx → EReal) (Wc : Mat) (bc : Bias) (W1 : Mat) (b1 : Bias) (W2 : Mat) (b2 : Bias) :
    (⟨2, ![100000, 128]⟩ : Shape).Idx → EReal :=
  fun i => mlpRow (rowOf A (i 0)) Wc bc W1 b1 W2 b2 (i 1)

end Cert.GraphMlp

end
-- ==== Proof.Aggregate.lean ====
/-
  The neighbourhood aggregation, as one function of the node features and the two edge-index arrays.

  Both programs compute, before anything dense,
      A = segment_sum ((x · norm_out)[src], dst) · norm_in,
  with  norm_out = rsqrt (max 1 (out-degree)),  norm_in = rsqrt (max 1 (in-degree)),  each degree a scatter-add of
  ones at the edge's endpoint, a negative source index wrapped once by the number of nodes before the gather.  The two
  printed programs spell this with the same operations in the same order over their own copies of the same dimension
  records; this module writes the term once per program and observes that the two are one function.
-/
import proofs.«135602_j29446295781899_1_alg».proof.Proof.Gen.KernelIdeal
import proofs.«135602_j29446295781899_1_alg».proof.Proof.Gen.ReferenceIdeal
import Idealize.ShloMosaic.PureOps.Ideal

noncomputable section

namespace Cert.GraphMlp

open Idealize.ShloMosaic

variable {F : FTy → Type} [FloatOps F]

/-- Node features at a float instance, and an edge-index array. -/
abbrev Feat (F : FTy → Type) : Type := (⟨2, ![100000, 128]⟩ : Shape).Idx → F .f32
abbrev Edges : Type := (⟨1, ![1600000]⟩ : Shape).Idx → BitVec 32

section KernelSide
open Cert.KernelIdeal Cert.KernelIdeal.Facts₀ Cert.KernelIdeal.Facts
/-- The aggregation as the kernel's program spells it. -/
def aggK (x0 : Feat F) (x1 x2 : Edges) : Feat F :=
  mulf (Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 (x2)) (Host.gather gather_S100000x128_S1600000x1_S1600000x128_1_0_n_n_0_1_1128 (mulf (x0) (broadcastInDim S100000x128 ![0, 1] bcast_S100000x1_S100000x128_0_1 (broadcastInDim S100000x1 ![0] bcast_S100000_S100000x1_0 (Host.rsqrt (maximumf (broadcastInDim S100000 ![] bcast_S_S100000 (id (constant (F := F) S_ .f32 0x3F800000#32))) (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (x1)) (broadcastInDim S1600000 ![] bcast_S_S1600000 (constant (F := F) S_ .f32 0x3F800000#32)))))))) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1))))) (broadcastInDim S100000x128 ![0, 1] bcast_S100000x1_S100000x128_0_1 (broadcastInDim S100000x1 ![0] bcast_S100000_S100000x1_0 (Host.rsqrt (maximumf (broadcastInDim S100000 ![] bcast_S_S100000 (id (constant (F := F) S_ .f32 0x3F800000#32))) (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (x2)) (broadcastInDim S1600000 ![] bcast_S_S1600000 (constant (F := F) S_ .f32 0x3F800000#32)))))))
end KernelSide

section ReferenceSide
open Cert.ReferenceIdeal Cert.ReferenceIdeal.Facts₀ Cert.ReferenceIdeal.Facts
/-- The aggregation as the reference's program spells it. -/
def aggR (x0 : Feat F) (x1 x2 : Edges) : Feat F :=
  mulf (Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 (x2)) (Host.gather gather_S100000x128_S1600000x1_S1600000x128_1_0_n_n_0_1_1128 (mulf (x0) (broadcastInDim S100000x128 ![0, 1] bcast_S100000x1_S100000x128_0_1 (broadcastInDim S100000x1 ![0] bcast_S100000_S100000x1_0 (Host.rsqrt (maximumf (broadcastInDim S100000 ![] bcast_S_S100000 (id (constant (F := F) S_ .f32 0x3F800000#32))) (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (x1)) (broadcastInDim S1600000 ![] bcast_S_S1600000 (constant (F := F) S_ .f32 0x3F800000#32)))))))) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1))))) (broadcastInDim S100000x128 ![0, 1] bcast_S100000x1_S100000x128_0_1 (broadcastInDim S100000x1 ![0] bcast_S100000_S100000x1_0 (Host.rsqrt (maximumf (broadcastInDim S100000 ![] bcast_S_S100000 (id (constant (F := F) S_ .f32 0x3F800000#32))) (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (x2)) (broadcastInDim S1600000 ![] bcast_S_S1600000 (constant (F := F) S_ .f32 0x3F800000#32)))))))
end ReferenceSide

/-- The two spellings are one function: the same operations over equal dimension records. -/
theorem aggK_eq_aggR (x0 : Feat F) (x1 x2 : Edges) : aggK x0 x1 x2 = aggR x0 x1 x2 := rfl

end Cert.GraphMlp

end
-- ==== Proof.KernelRow.lean ====
/-
  One block of the kernel, read row by row.

  The kernel's body loads a 4000 × 128 block `X` of the aggregated features, the three weight matrices and biases,
  and stores  relu (relu (X · Wc + bc) · W1 + b1) · W2 + b2.  Each product is an MXU contraction into a zero
  accumulator, which on the extended reals is the plain sum over the 128 shared coordinates; the narrowing to
  bf16 before each product is the identity there; a bias is reshaped to one row and repeated down the block.
  So entry (p, q) of the stored block is the three-layer row function of row p of X, at column q.
-/
import proofs.«135602_j29446295781899_1_alg».proof.Proof.Gen.KernelIdeal.Skeleton
import proofs.«135602_j29446295781899_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GraphMlp.KernelRow

open Cert.KernelIdeal Cert.KernelIdeal.Gen Idealize.ShloMosaic Idealize.ShloMosaic.ValueIdx Cert.GraphMlp

/-! ## The contraction's operand indices -/

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into a zero accumulator, at (p, q): the sum over k of X[p, k] · W[k, q]. -/
theorem matmul_at (X : S4000x128.Idx → EReal) (W : S128x128.Idx → EReal) (p : Fin 4000) (q : Fin 128) :
    matmul (F := Ideal) (φ₁ := .bf16) (φ₂ := .bf16) dot_S4000x128_S128x128_S4000x128_1_0_0_1_n_n none X W (constant S4000x128 .f32 0x00000000#32) (ix2 p q)
      = ∑ k : Fin 128, X (ix2 p k) * W (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A bias, reshaped to one row and repeated down the block, at (p, q): the bias at q. -/
theorem bias_at (b : S128.Idx → EReal) (p : Fin 4000) (q : Fin 128) :
    broadcastTo S4000x128 (shapeCast S1x128 b shapeCasts_S128_S1x128) broadcasts_S1x128_S4000x128 (ix2 p q) = b (ix1 q) := by
  rw [broadcastTo_1b_ab_apply, shapeCast_a_1a_apply]

/-- One affine layer of the body on a block, row p: the row function of row p. -/
theorem dense_row (X : S4000x128.Idx → EReal) (W : S128x128.Idx → EReal) (b : S128.Idx → EReal) (p : Fin 4000) :
    rowOf (addf (F := Ideal) (φ := .f32)
        (matmul (F := Ideal) (φ₁ := .bf16) (φ₂ := .bf16) dot_S4000x128_S128x128_S4000x128_1_0_0_1_n_n none X W (constant S4000x128 .f32 0x00000000#32))
        (broadcastTo S4000x128 (shapeCast S1x128 b shapeCasts_S128_S1x128) broadcasts_S1x128_S4000x128)) p
      = denseRow (rowOf X p) W b := by
  funext q
  show _ + _ = _
  rw [matmul_at, bias_at]
  rfl

/-- The body's rectifier on a block, row p: the rectifier of row p. -/
theorem relu_row (Y : S4000x128.Idx → EReal) (p : Fin 4000) :
    rowOf (maximumf (F := Ideal) (φ := .f32) Y (broadcast S4000x128 (Scalar.ofBits (F := Ideal) .f32 0x00000000#32))) p = reluRow (rowOf Y p) := by
  funext q
  show max _ (Ideal.ofBits .f32 0x00000000#32) = max _ 0
  rw [Ideal.ofBits_zero_f32]

/-- THE STORED BLOCK, entry (p, q): the three layers on row p of the loaded block, at column q. -/
theorem pay_at (x : Vec Ideal S4000x128 .f32) (wc : Vec Ideal S128x128 .f32) (bc : Vec Ideal S128 .f32)
    (w1 : Vec Ideal S128x128 .f32) (b1 : Vec Ideal S128 .f32) (w2 : Vec Ideal S128x128 .f32) (b2 : Vec Ideal S128 .f32)
    (p : Fin 4000) (q : Fin 128) :
    k0_pay1 (F := Ideal) x wc bc w1 b1 w2 b2 (ix2 p q) = mlpRow (rowOf x p) wc bc w1 b1 w2 b2 q := by
  unfold k0_pay1 mlpRow
  rw [shapeCast_self]
  refine congrFun ((dense_row _ w2 b2 p).trans ?_) q
  refine congrArg (fun a => denseRow a w2 b2) ((relu_row _ p).trans (congrArg reluRow ?_))
  refine (dense_row _ w1 b1 p).trans ?_
  refine congrArg (fun a => denseRow a w1 b1) ((relu_row _ p).trans (congrArg reluRow ?_))
  exact dense_row x wc bc p

end Cert.GraphMlp.KernelRow

end
-- ==== Proof.KernelBlock.lean ====
/-
  One grid point of the kernel against the whole-array function.

  The grid has 25 points; point t stages rows 4000·t … 4000·t + 3999 of the aggregated array (all 128 columns) and the
  three weight matrices and biases whole, and its result block lies over the same rows of the result array.  By the
  row reading of the body, entry j of what the body stores at point t is the whole-array three-layer function at the
  place of the result array where entry j of the block lies — for ANY contents of the staged arrays.
-/
import proofs.«135602_j29446295781899_1_alg».proof.Proof.Gen.KernelIdeal.Frame
import Idealize.ShloMosaic.Lib.Pipeline.Value
import proofs.«135602_j29446295781899_1_alg».proof.Proof.KernelRow
import proofs.«135602_j29446295781899_1_alg».proof.Proof.Spec

noncomputable section

namespace Cert.GraphMlp.KernelBlock

open Cert.KernelIdeal Cert.KernelIdeal.Gen Idealize.ShloMosaic Idealize.ShloMosaic.TcCoe Idealize.SL.Sem
open Idealize.ShloMosaic.ValueIdx Cert.GraphMlp
open Idealize.ShloMosaic.Pipeline (Dat)

theorem origin2 : (![0, 0] : Fin 2 → Nat) = fun _ => 0 := funext fun a => by fin_cases a <;> rfl
theorem origin1 : (![0] : Fin 1 → Nat) = fun _ => 0 := funext fun a => by fin_cases a <;> rfl

/-- The printed index maps over the 25 points: the feature window and the result window are both at block row t,
    block column 0; the weights and biases stay at block 0. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- One entry of a stored block against one entry of the whole-array function: if the loaded feature block's row is the
    array's row, the loaded weights are the arrays, and the columns agree, the two are equal. -/
theorem entry_eq (x : Vec Ideal S4000x128 .f32) (wc : Vec Ideal S128x128 .f32) (bc : Vec Ideal S128 .f32)
    (w1 : Vec Ideal S128x128 .f32) (b1 : Vec Ideal S128 .f32) (w2 : Vec Ideal S128x128 .f32) (b2 : Vec Ideal S128 .f32)
    (A : S100000x128.Idx → EReal) (Wc : S128x128.Idx → EReal) (Bc : S128.Idx → EReal) (W1 : S128x128.Idx → EReal) (B1 : S128.Idx → EReal)
    (W2 : S128x128.Idx → EReal) (B2 : S128.Idx → EReal)
    (y : S4000x128.Idx) (i : S100000x128.Idx)
    (hx : ∀ k : Fin 128, x (ix2 (y 0) k) = A (ix2 (i 0) k)) (hcol : y 1 = i 1)
    (hwc : wc = Wc) (hbc : bc = Bc) (hw1 : w1 = W1) (hb1 : b1 = B1) (hw2 : w2 = W2) (hb2 : b2 = B2) :
    k0_pay1 (F := Ideal) x wc bc w1 b1 w2 b2 y = mlpAll A Wc Bc W1 B1 W2 B2 i := by
  subst hwc hbc hw1 hb1 hw2 hb2
  obtain ⟨p, q, rfl⟩ : ∃ (p : Fin 4000) (q : Fin 128), y = ix2 p q := ⟨y 0, y 1, eq_ix2 y⟩
  rw [KernelRow.pay_at]
  show mlpRow (rowOf x p) wc bc w1 b1 w2 b2 q = mlpRow (rowOf A (i 0)) wc bc w1 b1 w2 b2 (i 1)
  have hr : rowOf x p = rowOf A (i 0) := funext hx
  have hq : q = i 1 := hcol
  rw [hr, hq]

/-! ## A window's block at point t, read out of any array -/

/-- The weight and bias windows are whole arrays: their block at any point is the array itself. -/
theorem read1 (t : Fin cfg0.N) (A : S128x128.Idx → EReal) : ((cfg0.win 1).blk t).view.read (Elt Ideal) A = A := by
  obtain ⟨e00, e01, e70, e71, e10, e11, e20, e30, e31, e40, e50, e51, e60⟩ := idx_facts t
  funext y
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem read2 (t : Fin cfg0.N) (A : S128.Idx → EReal) : ((cfg0.win 2).blk t).view.read (Elt Ideal) A = A := by
  obtain ⟨e00, e01, e70, e71, e10, e11, e20, e30, e31, e40, e50, e51, e60⟩ := idx_facts t
  funext y
  show A (((cfg0.win 2).blk t).view.emb y) = A y
  refine congrArg A (funext fun a => Fin.ext ?_)
  match a with
  | ⟨0, _⟩ => show win0_2.index t (0 : Fin 1) * 128 + 1 * (y 0).val = (y 0).val; omega

theorem read3 (t : Fin cfg0.N) (A : S128x128.Idx → EReal) : ((cfg0.win 3).blk t).view.read (Elt Ideal) A = A := by
  obtain ⟨e00, e01, e70, e71, e10, e11, e20, e30, e31, e40, e50, e51, e60⟩ := idx_facts t
  funext y
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem read4 (t : Fin cfg0.N) (A : S128.Idx → EReal) : ((cfg0.win 4).blk t).view.read (Elt Ideal) A = A := by
  obtain ⟨e00, e01, e70, e71, e10, e11, e20, e30, e31, e40, e50, e51, e60⟩ := idx_facts t
  funext y
  show A (((cfg0.win 4).blk t).view.emb y) = A y
  refine congrArg A (funext fun a => Fin.ext ?_)
  match a with
  | ⟨0, _⟩ => show win0_4.index t (0 : Fin 1) * 128 + 1 * (y 0).val = (y 0).val; omega

theorem read5 (t : Fin cfg0.N) (A : S128x128.Idx → EReal) : ((cfg0.win 5).blk t).view.read (Elt Ideal) A = A := by
  obtain ⟨e00, e01, e70, e71, e10, e11, e20, e30, e31, e40, e50, e51, e60⟩ := idx_facts t
  funext y
  show A (((cfg0.win 5).blk t).view.emb y) = A y
  refine congrArg A (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem read6 (t : Fin cfg0.N) (A : S128.Idx → EReal) : ((cfg0.win 6).blk t).view.read (Elt Ideal) A = A := by
  obtain ⟨e00, e01, e70, e71, e10, e11, e20, e30, e31, e40, e50, e51, e60⟩ := idx_facts t
  funext y
  show A (((cfg0.win 6).blk t).view.emb y) = A y
  refine congrArg A (funext fun a => Fin.ext ?_)
  match a with
  | ⟨0, _⟩ => show win0_6.index t (0 : Fin 1) * 128 + 1 * (y 0).val = (y 0).val; omega

/-- The feature window's block at point t is rows 4000·t … of its array: its row p is the array's row 4000·t + p. -/
theorem read0_row (t : Fin cfg0.N) (A : S100000x128.Idx → EReal) (p : Fin 4000) (r : Fin 100000) (hr : r.val = t.val * 4000 + p.val) (k : Fin 128) :
    ((cfg0.win 0).blk t).view.read (Elt Ideal) A (ix2 p k) = A (ix2 r k) := by
  obtain ⟨e00, e01, e70, e71, e10, e11, e20, e30, e31, e40, e50, e51, e60⟩ := idx_facts t
  show A (((cfg0.win 0).blk t).view.emb (ix2 p k)) = A (ix2 r k)
  refine congrArg A (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- Where entry j of the result window's block at point t lies in the array: row 4000·t + j₀, column j₁. -/
theorem emb7 (t : Fin cfg0.N) (j : S4000x128.Idx) :
    ((((cfg0.win 7).blk t).view.emb j) 0).val = t.val * 4000 + (j 0).val ∧ (((cfg0.win 7).blk t).view.emb j) 1 = j 1 := by
  obtain ⟨e00, e01, e70, e71, e10, e11, e20, e30, e31, e40, e50, e51, e60⟩ := idx_facts t
  refine ⟨?_, Fin.ext ?_⟩
  · show win0_7.index t (0 : Fin 2) * 4000 + 1 * (j 0).val = t.val * 4000 + (j 0).val; omega
  · show win0_7.index t (1 : Fin 2) * 128 + 1 * (j 1).val = (j 1).val; omega

/-- Reading any array through the result window's block at point t, entry j, is the array at the place of entry j. -/
theorem read7_at (t : Fin cfg0.N) (G : S100000x128.Idx → EReal) (j : S4000x128.Idx) :
    ((cfg0.win 7).blk t).view.read (Elt Ideal) G j = G (((cfg0.win 7).blk t).view.emb j) := rfl

/-- THE BODY'S STORE at point t, entry j, over the windows' blocks of any arrays: the whole-array function of those
    arrays, read through the result window's block at point t, at entry j. -/
theorem block_eq (t : Fin cfg0.N) (A : S100000x128.Idx → EReal) (Wc : S128x128.Idx → EReal) (Bc : S128.Idx → EReal)
    (W1 : S128x128.Idx → EReal) (B1 : S128.Idx → EReal) (W2 : S128x128.Idx → EReal) (B2 : S128.Idx → EReal) (j : S4000x128.Idx) :
    k0_pay1 (F := Ideal) (((cfg0.win 0).blk t).view.read (Elt Ideal) A) (((cfg0.win 1).blk t).view.read (Elt Ideal) Wc)
        (((cfg0.win 2).blk t).view.read (Elt Ideal) Bc) (((cfg0.win 3).blk t).view.read (Elt Ideal) W1)
        (((cfg0.win 4).blk t).view.read (Elt Ideal) B1) (((cfg0.win 5).blk t).view.read (Elt Ideal) W2)
        (((cfg0.win 6).blk t).view.read (Elt Ideal) B2) j
      = ((cfg0.win 7).blk t).view.read (Elt Ideal) (mlpAll A Wc Bc W1 B1 W2 B2) j :=
  (entry_eq _ _ _ _ _ _ _ A Wc Bc W1 B1 W2 B2 j (((cfg0.win 7).blk t).view.emb j)
    (fun k => read0_row t A (j 0) _ (emb7 t j).1 k) (emb7 t j).2.symm
    (read1 t Wc) (read2 t Bc) (read3 t W1) (read4 t B1) (read5 t W2) (read6 t B2)).trans
    (read7_at t (mlpAll A Wc Bc W1 B1 W2 B2) j).symm

/-- An index of the result array is in point t's block iff each coordinate is in the block's range on its axis. -/
theorem mem_blk (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v27).slice (win0_7.rect t)).set ↔ _
  rw [View.set_slice_whole, Rect.mem_set_unit]
  exact Iff.rfl

/-- The 25 blocks tile the 100000 rows: row r is in the block of point r / 4000. -/
theorem covered (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 25 := N_0
  have hlt : (i 0).val / 4000 < cfg0.N := by rw [hN]; omega
  obtain ⟨-, -, e70, e71, -⟩ := idx_facts ⟨(i 0).val / 4000, hlt⟩
  refine ⟨⟨(i 0).val / 4000, hlt⟩, flush0_7 _, ?_⟩
  rw [mem_blk]
  intro a
  match a with
  | ⟨0, _⟩ =>
    show win0_7.index ⟨(i 0).val / 4000, hlt⟩ (0 : Fin 2) * 4000 ≤ (i 0).val ∧ (i 0).val < win0_7.index ⟨(i 0).val / 4000, hlt⟩ (0 : Fin 2) * 4000 + 4000
    have e : win0_7.index ⟨(i 0).val / 4000, hlt⟩ (0 : Fin 2) = (i 0).val / 4000 := e70
    omega
  | ⟨1, _⟩ =>
    show win0_7.index ⟨(i 0).val / 4000, hlt⟩ (1 : Fin 2) * 128 ≤ (i 1).val ∧ (i 1).val < win0_7.index ⟨(i 0).val / 4000, hlt⟩ (1 : Fin 2) * 128 + 128
    omega

end Cert.GraphMlp.KernelBlock

end
-- ==== Proof.KernelRun.lean ====
/-
  From blocks to the whole array: the kernel's run with its result named.

  What point t writes back is the body's stored block over the windows' blocks at t (at any float instance: the one
  store covers the staging buffer, and the window is not cut at the array's end).  On the extended reals that block
  is, entry by entry, the whole-array three-layer function of the arrays the region finds, read through point t's
  block of the result array; the 25 blocks tile the result array's 100000 rows; so after the run the result array IS
  that function of the aggregated array and the weights as the region found them.
-/
import proofs.«135602_j29446295781899_1_alg».proof.Proof.Gen.KernelIdeal.Value
import proofs.«135602_j29446295781899_1_alg».proof.Proof.KernelBlock

noncomputable section

namespace Cert.GraphMlp.KernelRun

open Cert.KernelIdeal Cert.KernelIdeal.Gen Cert.KernelIdeal.Value Idealize.ShloMosaic Idealize.ShloMosaic.TcCoe Idealize.SL.Sem
open Idealize.ShloMosaic.ValueIdx Cert.GraphMlp
open Idealize.ShloMosaic.Pipeline (Dat)

section AnyInstance
variable {F : FTy → Type} [FloatOps F] (m : (ℓ : Loc nD τ sig) → Buf (Elt F) ℓ)

/-- WHAT POINT t WRITES BACK is the body's stored block over the windows' blocks at t. -/
theorem flushed_pay (c : Dev nD) (t : Fin cfg0.N) :
    (dats m 0 c).flushed 7 t = k0_pay1 (iblk m c 0 t) (iblk m c 1 t) (iblk m c 2 t) (iblk m c 3 t) (iblk m c 4 t) (iblk m c 5 t) (iblk m c 6 t) := by
  rw [flushed7]
  unfold out0_7
  rw [View.canon_unit_zero KernelBlock.origin2]
  simp only [View.ld_unit_zero (S := S4000x128) KernelBlock.origin2, View.ld_unit_zero (S := S128x128) KernelBlock.origin2,
    View.ld_unit_zero (S := S128) KernelBlock.origin1]
  rfl

end AnyInstance

variable (m : (ℓ : Loc nD τ sig) → Buf (Elt Ideal) ℓ) (ρ : Dev nD → PrngReg)

/-- The result array as the kernel leaves it: the three layers on every row of the aggregated array the region finds,
    with the weights and biases the region finds (each array named as its window names it). -/
def resultOf (c : Dev nD) : S100000x128.Idx → EReal :=
  mlpAll (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6))

/-- WHAT POINT t WRITES BACK is block t of the whole-array function. -/
theorem flushed_eq (c : Dev nD) (t : Fin cfg0.N) :
    (dats m 0 c).flushed 7 t = ((cfg0.win 7).blk t).view.read (Elt Ideal) (resultOf m c) := by
  rw [flushed_pay]
  funext j
  unfold iblk resultOf
  exact KernelBlock.block_eq t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6)) j

/-- THE RESULT ARRAY after the run is the three layers on every row of the aggregated array. -/
theorem final (c : Dev nD) : (dats m 0 c).arrAt 7 cfg0.N = resultOf m c :=
  (dats m 0 c).arrAt_eq_of_cover 7 (resultOf m c) (fun t _ => flushed_eq m c t) KernelBlock.covered

/-- The kernel's run, with its result array named. -/
theorem run : θ_run defs (onTc (τ := τ) (main (F := Ideal))) ⟨m, fun _ => 0, ρ⟩ fun r => ∀ c : Dev nD,
      r.2.mem ((c : Thread nD τ).loc main_v27) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.GraphMlp.KernelRun

end
-- ==== Proof.KernelAgg.lean ====
/-
  What the kernel's region finds in its feature window's array.

  The kernel's program runs the aggregation's host operations before its one region, so the array the first window
  stages holds, when the region is entered, the aggregation of the three arguments as launched.
-/
import proofs.«135602_j29446295781899_1_alg».proof.Proof.Gen.KernelIdeal.Frame
import proofs.«135602_j29446295781899_1_alg».proof.Proof.Aggregate
import Idealize.ShloMosaic.Lib.StableHlo.Run

noncomputable section

namespace Cert.GraphMlp.KernelAgg

open Cert.KernelIdeal Cert.KernelIdeal.Gen Idealize.ShloMosaic Idealize.ShloMosaic.TcCoe Idealize.SL.Sem Idealize.ShloMosaic.StableHlo
open Cert.GraphMlp

variable {F : FTy → Type} [FloatOps F] (m : (ℓ : Loc nD τ sig) → Buf (Elt F) ℓ)

set_option maxRecDepth 8192 in
set_option maxHeartbeats 2000000 in
/-- The feature window's array at region entry is the aggregation of the node features and the edge arrays. -/
theorem found_eq (c : Dev nD) :
    V m c main_v26 = aggK (F := F) (m ((c : Thread nD τ).loc main_arg0)) (m ((c : Thread nD τ).loc main_arg1)) (m ((c : Thread nD τ).loc main_arg2)) := by
  dsimp only [V]
  simp only [hostOps0, hostOps0_1, hostOps0_2, hostOps0_3, hostOps0_4, List.flatten_cons, List.flatten_nil, List.append_nil, List.cons_append,
    List.nil_append]
  after_results_simp
  unfold aggK
  rfl

/-! The same, and the weights' and biases' arrays, named as the region's windows name their arrays. -/

theorem found_arr0 (c : Dev nD) :
    V m c (Pipeline.arrRef spec0 0) = aggK (F := F) (m ((c : Thread nD τ).loc main_arg0)) (m ((c : Thread nD τ).loc main_arg1)) (m ((c : Thread nD τ).loc main_arg2)) :=
  found_eq m c
theorem found_arr1 (c : Dev nD) : V m c (Pipeline.arrRef spec0 1) = m ((c : Thread nD τ).loc main_arg3) := V_main_arg3 m c
theorem found_arr2 (c : Dev nD) : V m c (Pipeline.arrRef spec0 2) = m ((c : Thread nD τ).loc main_arg4) := V_main_arg4 m c
theorem found_arr3 (c : Dev nD) : V m c (Pipeline.arrRef spec0 3) = m ((c : Thread nD τ).loc main_arg5) := V_main_arg5 m c
theorem found_arr4 (c : Dev nD) : V m c (Pipeline.arrRef spec0 4) = m ((c : Thread nD τ).loc main_arg6) := V_main_arg6 m c
theorem found_arr5 (c : Dev nD) : V m c (Pipeline.arrRef spec0 5) = m ((c : Thread nD τ).loc main_arg7) := V_main_arg7 m c
theorem found_arr6 (c : Dev nD) : V m c (Pipeline.arrRef spec0 6) = m ((c : Thread nD τ).loc main_arg8) := V_main_arg8 m c

end Cert.GraphMlp.KernelAgg

end
-- ==== Proof.RefRow.lean ====
/-
  The reference after the aggregation, read row by row.

  Once the reference has the aggregated node features `A` (its value `%26`), it applies to the WHOLE array
      relu (relu (A · Wc + bc) · W1 + b1) · W2 + b2,
  each product a `dot_general` over the one shared axis (on the extended reals, the plain sum over its 128
  coordinates), each bias sent to one row and repeated down the array, each rectifier a maximum with a zero splat.
  So entry (r, q) of the result is the three-layer row function of row r of `A`, at column q.
-/
import proofs.«135602_j29446295781899_1_alg».proof.Proof.Gen.ReferenceIdeal.Read
import proofs.«135602_j29446295781899_1_alg».proof.Proof.Spec

noncomputable section

open scoped BigOperators

namespace Cert.GraphMlp.RefRow

open Cert.ReferenceIdeal Cert.ReferenceIdeal.Read Idealize.ShloMosaic Idealize.ShloMosaic.ValueIdx Cert.GraphMlp

/-! ## Where each stage reads its operands, at (r, q) -/

theorem lidx27_at (r : Fin 100000) (q k : Fin 128) : lidx_main_v27 (ix2 r q) k = ix2 r k :=
  funext fun a => Fin.ext (by match a with | ⟨0, _⟩ => rfl | ⟨1, _⟩ => rfl)
theorem ridx27_at (r : Fin 100000) (q k : Fin 128) : ridx_main_v27 (ix2 r q) k = ix2 k q :=
  funext fun a => Fin.ext (by match a with | ⟨0, _⟩ => rfl | ⟨1, _⟩ => rfl)
theorem lidx32_at (r : Fin 100000) (q k : Fin 128) : lidx_main_v32 (ix2 r q) k = ix2 r k :=
  funext fun a => Fin.ext (by match a with | ⟨0, _⟩ => rfl | ⟨1, _⟩ => rfl)
theorem ridx32_at (r : Fin 100000) (q k : Fin 128) : ridx_main_v32 (ix2 r q) k = ix2 k q :=
  funext fun a => Fin.ext (by match a with | ⟨0, _⟩ => rfl | ⟨1, _⟩ => rfl)
theorem lidx37_at (r : Fin 100000) (q k : Fin 128) : lidx_main_v37 (ix2 r q) k = ix2 r k :=
  funext fun a => Fin.ext (by match a with | ⟨0, _⟩ => rfl | ⟨1, _⟩ => rfl)
theorem ridx37_at (r : Fin 100000) (q k : Fin 128) : ridx_main_v37 (ix2 r q) k = ix2 k q :=
  funext fun a => Fin.ext (by match a with | ⟨0, _⟩ => rfl | ⟨1, _⟩ => rfl)
theorem bias29_at (r : Fin 100000) (q : Fin 128) : idx_main_v28 (idx_main_v29 (ix2 r q)) = ix1 q :=
  funext fun a => Fin.ext (by match a with | ⟨0, _⟩ => rfl)
theorem bias34_at (r : Fin 100000) (q : Fin 128) : idx_main_v33 (idx_main_v34 (ix2 r q)) = ix1 q :=
  funext fun a => Fin.ext (by match a with | ⟨0, _⟩ => rfl)
theorem bias39_at (r : Fin 100000) (q : Fin 128) : idx_main_v38 (idx_main_v39 (ix2 r q)) = ix1 q :=
  funext fun a => Fin.ext (by match a with | ⟨0, _⟩ => rfl)

section
variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-- The first affine layer, row r. -/
theorem dense1_row (r : Fin 100000) :
    rowOf (val_main_v30 (F := Ideal) x0 x1 x2 x3 x4) r = denseRow (rowOf (val_main_v26 (F := Ideal) x0 x1 x2) r) x3 x4 := by
  funext q
  show val_main_v30 (F := Ideal) x0 x1 x2 x3 x4 (ix2 r q) = _
  rw [val_main_v30_apply, val_main_v27_apply, val_main_v29_apply, val_main_v28_apply]
  simp only [lidx27_at, ridx27_at, bias29_at]
  rfl

/-- The first rectifier, row r. -/
theorem relu1_row (r : Fin 100000) :
    rowOf (val_main_v31 (F := Ideal) x0 x1 x2 x3 x4) r = reluRow (rowOf (val_main_v30 (F := Ideal) x0 x1 x2 x3 x4) r) := by
  funext q
  show val_main_v31 (F := Ideal) x0 x1 x2 x3 x4 (ix2 r q) = _
  rw [val_main_v31_apply, val_main_call2_v0_apply, val_main_call2_cst_apply]
  show max _ (Ideal.ofBits .f32 0x00000000#32) = max _ 0
  rw [Ideal.ofBits_zero_f32]

/-- The second affine layer, row r. -/
theorem dense2_row (r : Fin 100000) :
    rowOf (val_main_v35 (F := Ideal) x0 x1 x2 x3 x4 x5 x6) r = denseRow (rowOf (val_main_v31 (F := Ideal) x0 x1 x2 x3 x4) r) x5 x6 := by
  funext q
  show val_main_v35 (F := Ideal) x0 x1 x2 x3 x4 x5 x6 (ix2 r q) = _
  rw [val_main_v35_apply, val_main_v32_apply, val_main_v34_apply, val_main_v33_apply]
  simp only [lidx32_at, ridx32_at, bias34_at]
  rfl

/-- The second rectifier, row r. -/
theorem relu2_row (r : Fin 100000) :
    rowOf (val_main_v36 (F := Ideal) x0 x1 x2 x3 x4 x5 x6) r = reluRow (rowOf (val_main_v35 (F := Ideal) x0 x1 x2 x3 x4 x5 x6) r) := by
  funext q
  show val_main_v36 (F := Ideal) x0 x1 x2 x3 x4 x5 x6 (ix2 r q) = _
  rw [val_main_v36_apply, val_main_call3_v0_apply, val_main_call3_cst_apply]
  show max _ (Ideal.ofBits .f32 0x00000000#32) = max _ 0
  rw [Ideal.ofBits_zero_f32]

/-- The third affine layer, row r. -/
theorem dense3_row (r : Fin 100000) :
    rowOf (val_main_v40 (F := Ideal) x0 x1 x2 x3 x4 x5 x6 x7 x8) r = denseRow (rowOf (val_main_v36 (F := Ideal) x0 x1 x2 x3 x4 x5 x6) r) x7 x8 := by
  funext q
  show val_main_v40 (F := Ideal) x0 x1 x2 x3 x4 x5 x6 x7 x8 (ix2 r q) = _
  rw [val_main_v40_apply, val_main_v37_apply, val_main_v39_apply, val_main_v38_apply]
  simp only [lidx37_at, ridx37_at, bias39_at]
  rfl

/-- THE REFERENCE'S RESULT is the three layers on every row of its aggregated array. -/
theorem result_eq :
    val_main_v40 (F := Ideal) x0 x1 x2 x3 x4 x5 x6 x7 x8 = mlpAll (val_main_v26 (F := Ideal) x0 x1 x2) x3 x4 x5 x6 x7 x8 := by
  funext i
  obtain ⟨r, q, rfl⟩ : ∃ (r : Fin 100000) (q : Fin 128), i = ix2 r q := ⟨i 0, i 1, eq_ix2 i⟩
  show rowOf (val_main_v40 (F := Ideal) x0 x1 x2 x3 x4 x5 x6 x7 x8) r q = mlpRow (rowOf (val_main_v26 (F := Ideal) x0 x1 x2) r) x3 x4 x5 x6 x7 x8 q
  unfold mlpRow
  refine congrFun ((dense3_row x0 x1 x2 x3 x4 x5 x6 x7 x8 r).trans ?_) q
  refine congrArg (fun a => denseRow a x7 x8) ((relu2_row x0 x1 x2 x3 x4 x5 x6 r).trans (congrArg reluRow ?_))
  refine (dense2_row x0 x1 x2 x3 x4 x5 x6 r).trans ?_
  refine congrArg (fun a => denseRow a x5 x6) ((relu1_row x0 x1 x2 x3 x4 r).trans (congrArg reluRow ?_))
  exact dense1_row x0 x1 x2 x3 x4 r

end

end Cert.GraphMlp.RefRow

end
-- ==== Proof.RefAgg.lean ====
/-
  The reference's aggregated array is the aggregation of its three arguments.
-/
import proofs.«135602_j29446295781899_1_alg».proof.Proof.Gen.ReferenceIdeal.Read
import proofs.«135602_j29446295781899_1_alg».proof.Proof.Aggregate

noncomputable section

namespace Cert.GraphMlp.RefAgg

open Cert.ReferenceIdeal Cert.ReferenceIdeal.Read Idealize.ShloMosaic Cert.GraphMlp

/-- The reference's value `%26`, stage by stage, is the aggregation as its program spells it. -/
theorem stage_eq {F : FTy → Type} [FloatOps F] (x0 : Feat F) (x1 x2 : Edges) : val_main_v26 (F := F) x0 x1 x2 = aggR x0 x1 x2 := rfl

end Cert.GraphMlp.RefAgg

end
-- ==== Proof.lean ====
/-
  A graph convolution followed by two dense layers, kernel against reference, over the extended reals.

  Both programs first aggregate: with out- and in-degrees counted by scatter-add of ones (each clipped below at 1),
      A = segment_sum ((x · rsqrt deg_out)[src], dst) · rsqrt deg_in        (100000 × 128),
  by the same host operations in the same order (Proof/Aggregate.lean: one function of x, src, dst).  Then
      out = relu (relu (A · Wc + bc) · W1 + b1) · W2 + b2,
  which the reference computes on the whole array with three `dot_general`s (Proof/RefRow.lean) and the kernel in ONE
  region of 25 grid points, each on a block of 4000 rows with the weights resident, narrowing the matrix operands to
  bf16 before each MXU product (Proof/KernelRow.lean: on the extended reals the narrowing is the identity and the
  product into a zero accumulator the plain sum over the 128 shared coordinates, so the stored block is the row
  function of the loaded block; Proof/KernelBlock.lean and Proof/KernelRun.lean: the 25 blocks tile the result array,
  which therefore ends at the whole-array function of what the region found; Proof/KernelAgg.lean: what it found in
  its feature window is A).  Row by row both results are the same function `mlpRow` (Proof/Spec.lean) of the same row
  of the same A with the same weights: sums over the same index set in both, so no algebraic law and no finiteness
  is used.  The three frames are the generated ones (the reference's its generated run with the result dropped);
  the ideal pass rewrote nothing, so the kernel's idealization is its own text read at the extended reals.
-/
import proofs.«135602_j29446295781899_1_alg».proof.Defs
import proofs.«135602_j29446295781899_1_alg».proof.Proof.Gen.Kernel
import proofs.«135602_j29446295781899_1_alg».proof.Proof.Gen.Kernel.Skeleton
import proofs.«135602_j29446295781899_1_alg».proof.Proof.Gen.Kernel.Launch
import proofs.«135602_j29446295781899_1_alg».proof.Proof.Gen.Kernel.Points
import proofs.«135602_j29446295781899_1_alg».proof.Proof.Gen.Kernel.Frame
import proofs.«135602_j29446295781899_1_alg».proof.Proof.Gen.KernelIdeal
import proofs.«135602_j29446295781899_1_alg».proof.Proof.Gen.KernelIdeal.Skeleton
import proofs.«135602_j29446295781899_1_alg».proof.Proof.Gen.KernelIdeal.Launch
import proofs.«135602_j29446295781899_1_alg».proof.Proof.Gen.KernelIdeal.Points
import proofs.«135602_j29446295781899_1_alg».proof.Proof.Gen.KernelIdeal.Frame
import proofs.«135602_j29446295781899_1_alg».proof.Proof.Gen.KernelIdeal.Value
import proofs.«135602_j29446295781899_1_alg».proof.Proof.Gen.ReferenceIdeal
import proofs.«135602_j29446295781899_1_alg».proof.Proof.Gen.ReferenceIdeal.Run
import proofs.«135602_j29446295781899_1_alg».proof.Proof.Gen.ReferenceIdeal.Read
import proofs.«135602_j29446295781899_1_alg».proof.Proof.Gen.Pre_finite_inputs
import proofs.«135602_j29446295781899_1_alg».proof.Proof.Spec
import proofs.«135602_j29446295781899_1_alg».proof.Proof.Aggregate
import proofs.«135602_j29446295781899_1_alg».proof.Proof.KernelRow
import proofs.«135602_j29446295781899_1_alg».proof.Proof.KernelBlock
import proofs.«135602_j29446295781899_1_alg».proof.Proof.KernelRun
import proofs.«135602_j29446295781899_1_alg».proof.Proof.KernelAgg
import proofs.«135602_j29446295781899_1_alg».proof.Proof.RefRow
import proofs.«135602_j29446295781899_1_alg».proof.Proof.RefAgg
import Idealize.ShloMosaic.Adequacy
import Idealize.ShloMosaic.Init

noncomputable section

namespace Cert.Proof

open Idealize.ShloMosaic Idealize.ShloMosaic.TcCoe Idealize.SL.Sem Cert.GraphMlp

/-- The whole-array function respects equality of each of its seven arguments. -/
theorem mlpAll_congr {A A' : (⟨2, ![100000, 128]⟩ : Shape).Idx → EReal} {Wc Wc' W1 W1' W2 W2' : Mat} {bc bc' b1 b1' b2 b2' : Bias}
    (hA : A = A') (hWc : Wc = Wc') (hbc : bc = bc') (hW1 : W1 = W1') (hb1 : b1 = b1') (hW2 : W2 = W2') (hb2 : b2 = b2') :
    mlpAll A Wc bc W1 b1 W2 b2 = mlpAll A' Wc' bc' W1' b1' W2' b2' := by
  subst hA hWc hbc hW1 hb1 hW2 hb2; rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array, in terms of the arguments as launched: the three layers on every row of the
    aggregation of the features and edge arrays, with the weights and biases as launched. -/
theorem kernel_result (m : (ℓ : Loc Cert.KernelIdeal.nD Cert.KernelIdeal.τ Cert.KernelIdeal.sig) → Buf (Elt Ideal) ℓ) (c : Dev Cert.KernelIdeal.nD) :
    KernelRun.resultOf m c
      = mlpAll (aggK (F := Ideal) (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) :=
  mlpAll_congr (KernelAgg.found_arr0 m c) (KernelAgg.found_arr1 m c) (KernelAgg.found_arr2 m c) (KernelAgg.found_arr3 m c)
    (KernelAgg.found_arr4 m c) (KernelAgg.found_arr5 m c) (KernelAgg.found_arr6 m c)

/-- The two idealized programs, from memories agreeing on the arguments, end with equal results: both are the three
    layers on every row of the one aggregation. -/
theorem algebraic : Cert.algebraic_KernelIdeal_ReferenceIdeal := by
  intro m ρ m' ρ' _ hagree
  refine ⟨fun c => KernelRun.resultOf m c, KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v40_eq, RefRow.result_eq, RefAgg.stage_eq, ← aggK_eq_aggR, h0, h1, h2, h3, h4, h5, h6, h7, h8]
  exact (kernel_result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
